-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S600000 32) (main_arg2 : IVec S600000 32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S1000x128 : Shape := ⟨2, ![1000, 128]⟩
abbrev S1000x1 : Shape := ⟨2, ![1000, 1]⟩
abbrev S600000x128 : Shape := ⟨2, ![600000, 128]⟩
abbrev S1x128 : Shape := ⟨2, ![1, 128]⟩

abbrev nBuf : Space → Nat
  | .hbm => 41
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S600000, .f32⟩
  | .hbm, ⟨7, _⟩ => ⟨S_, .f32⟩
  | .hbm, ⟨8, _⟩ => ⟨S50000, .f32⟩
  | .hbm, ⟨9, _⟩ => ⟨S600000x1, .i32⟩
  | .hbm, ⟨10, _⟩ => ⟨S50000, .f32⟩
  | .hbm, ⟨11, _⟩ => ⟨S_, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S600000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x128, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S_, .f32⟩
  | .hbm, ⟨35, _⟩ => ⟨S50000x128, .f32⟩
  | .hbm, ⟨36, _⟩ => ⟨S600000x1, .i32⟩
  | .hbm, ⟨37, _⟩ => ⟨S50000x128, .f32⟩
  | .hbm, ⟨38, _⟩ => ⟨S50000x1, .f32⟩
  | .hbm, ⟨39, _⟩ => ⟨S1x128, .f32⟩
  | .hbm, ⟨40, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S1000x1, .f32⟩
  | .local _ .vmem, ⟨3, _⟩ => ⟨S1000x1, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S128x128, .f32⟩
  | .local _ .vmem, ⟨9, _⟩ => ⟨S1x128, .f32⟩
  | .local _ .vmem, ⟨10, _⟩ => ⟨S1000x1, .f32⟩
  | .local _ .vmem, ⟨11, _⟩ => ⟨S1000x1, .f32⟩
  | .local _ .vmem, ⟨12, _⟩ => ⟨S1000x128, .f32⟩
  | .local _ .vmem, ⟨13, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1000x128_S1000x128_0_0 : ∀ a, (![0, 0] : Fin 2 → Nat) a + S1000x128.size a ≤ S1000x128.size a
  h_S1000x128 : 0 < S1000x128.numel
  broadcasts_S1000x1_S1000x128 : S1000x1.Broadcasts S1000x128
  bcast_S_S50000x128 : S_.BroadcastsInDim S50000x128 (![] : Fin 0 → Fin S50000x128.rank)
  shapeCasts_S128_S1x128 : S128.ShapeCasts S1x128
  shapeCasts_S1000x128_S1000x128 : S1000x128.ShapeCasts S1000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S50000x1.size a
  hwx0_1 : ∀ i : grid0.Coords, EltTy.bits .f32 = 32 ∨ (Rect.block (s := S50000x1) S1000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x1.size a ≤ S50000x1.size a
  hwx1_3 : ∀ i : grid1.Coords, EltTy.bits .f32 = 32 ∨ (Rect.block (s := S50000x1) S1000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x128.size a ≤ S50000x128.size a
  hwx1_4 : ∀ i : grid1.Coords, EltTy.bits .f32 = 32 ∨ (Rect.block (s := S50000x128) S1000x128.size (cc1_transform_4 i) (hinb1_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩

abbrev nBuf : Space → Nat
  | .hbm => 55
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S600000, .f32⟩
  | .hbm, ⟨7, _⟩ => ⟨S_, .f32⟩
  | .hbm, ⟨8, _⟩ => ⟨S50000, .f32⟩
  | .hbm, ⟨9, _⟩ => ⟨S600000x1, .i32⟩
  | .hbm, ⟨10, _⟩ => ⟨S50000, .f32⟩
  | .hbm, ⟨11, _⟩ => ⟨S_, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S600000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x128, .f32⟩
  | .hbm, ⟨28, _⟩ => ⟨S50000x128, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x128, .f32⟩
  | .hbm, ⟨38, _⟩ => ⟨S_, .f32⟩
  | .hbm, ⟨39, _⟩ => ⟨S50000x128, .f32⟩
  | .hbm, ⟨40, _⟩ => ⟨S600000x1, .i32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_v8 : Ref sig .tc := ⟨.hbm, 22, rfl⟩
abbrev main_cst_4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call2_cst : Ref sig .tc := ⟨.hbm, 52, rfl⟩
abbrev main_call2_v0 : Ref sig .tc := ⟨.hbm, 53, rfl⟩
abbrev main_v33 : Ref sig .tc := ⟨.hbm, 54, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.GraphConv.lean ====
/-
  Degree-normalised graph convolution over 50000 nodes with 128 features, as plain functions of whole arrays, and the
  facts that let two spellings of it meet at the extended reals.

  With `d_out`, `d_in` the out- and in-degree of every node clamped below by one, the layer is
      out[r, q] = max (( Σ_k agg[r, k] · w[k, q] ) · d_in[r]^(-1/2) + b[q], 0),
      agg = T (h),   h[r, c] = x[r, c] · d_out[r]^(-1/2),
  where `T` moves rows along the edges (a gather by source followed by a sum by destination) and is the same function
  in both spellings, so it is carried as an unopened function. One spelling takes the reciprocal square root, the other
  raises to the power -1/2; on [1, ⊤] the two agree: for a real `d ≥ 1` both are `(√d)⁻¹`, and at `⊤` both are `0`.
  Nothing else separates the two: a column of degrees stored as an `N × 1` array or broadcast along the rows reads the
  same entry, and the product `agg · w` is the same sum over the contracted coordinate.
-/
import Idealize.ShloMosaic.Lib.ValueIdx
import Idealize.ShloMosaic.Lib.ValueLayout
import Idealize.ShloMosaic.Lib.Pipeline.Value
import Idealize.ShloMosaic.PureOps.Ideal.Laws
import proofs.«152063_j51032801411439_1_alg».proof.Proof.LibDot

noncomputable section

open scoped BigOperators

namespace Cert.GraphConv

open Idealize.ShloMosaic Idealize.ShloMosaic.ValueIdx

/-! ## The two constants -/

/-- The pattern of `1.0` is the number one. -/
theorem ofBits_one : Ideal.ofBits .f32 0x3F800000#32 = 1 := by
  simp [Ideal.ofBits, Ideal.ieee, -EReal.coe_mul]; norm_num

/-- The pattern of `-0.5` is the number minus one half. -/
theorem ofBits_neg_half : Ideal.ofBits .f32 0xBF000000#32 = ((-(1 / 2) : ℝ) : EReal) := by
  simp [Ideal.ofBits, Ideal.ieee, -EReal.coe_mul]; norm_num

/-! ## Reciprocal square root against the power -1/2 -/

/-- On `[1, ⊤]` the reciprocal square root is the power `-1/2`: a real `d ≥ 1` is positive, where both are `(√d)⁻¹`;
    at `⊤` both are `0`. -/
theorem rsqrt_eq_pow_neg_half (x : EReal) (hx : 1 ≤ x) :
    Ideal.rsqrt x = Ideal.pow x ((-(1 / 2) : ℝ) : EReal) := by
  induction x using EReal.rec with
  | bot => exact absurd (le_bot_iff.mp hx) (by rw [← EReal.coe_one]; exact EReal.coe_ne_bot 1)
  | top =>
    rw [Ideal.rsqrt_top, Ideal.pow_top]
    have h1 : ¬ (0 : EReal) < ((-(1 / 2) : ℝ) : EReal) := by
      rw [not_lt]; exact_mod_cast (by norm_num : (-(1 / 2) : ℝ) ≤ 0)
    have h2 : ((-(1 / 2) : ℝ) : EReal) ≠ 0 := by
      intro h; have : (-(1 / 2) : ℝ) = 0 := by exact_mod_cast h
      norm_num at this
    rw [if_neg h1, if_neg h2]
  | coe r =>
    have hr : (1 : ℝ) ≤ r := by exact_mod_cast hx
    have hpos : 0 < r := lt_of_lt_of_le one_pos hr
    rw [Ideal.rsqrt_coe, Ideal.pow_coe_coe, if_neg (not_lt.mpr hpos.le), if_neg hpos.ne']
    congr 1
    show (Real.sqrt r)⁻¹ = r ^ (-(1 / 2) : ℝ)
    rw [Real.rpow_neg hpos.le, Real.sqrt_eq_rpow]

/-! ## Columns and rows read at an entry -/

section Layout
variable {α : Type}

/-- A vector of length `n` stored as an `n × 1` column reads, at `(r, 0)`, its entry `r`. -/
theorem shapeCast_col_apply {n : ℕ} (x : (⟨1, ![n]⟩ : Shape).Idx → α) (h : (⟨1, ![n]⟩ : Shape).ShapeCasts ⟨2, ![n, 1]⟩)
    (r : Fin n) (z : Fin 1) : shapeCast ⟨2, ![n, 1]⟩ x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A vector of length `n` laid along the rows of an `n × 1` column reads, at `(r, 0)`, its entry `r`. -/
theorem bcast_col_apply {n : ℕ} (hn : n ≠ 1) (x : (⟨1, ![n]⟩ : Shape).Idx → α)
    (h : (⟨1, ![n]⟩ : Shape).BroadcastsInDim ⟨2, ![n, 1]⟩ (![0] : Fin 1 → Fin 2))
    (r : Fin n) (z : Fin 1) : broadcastInDim ⟨2, ![n, 1]⟩ ![0] h x (ix2 r z) = x (ix1 r) :=
  broadcastInDim_apply _ h x (ix2 r z) (ix1 r) (fun a => match a with
    | ⟨0, _⟩ => by show r.val = if n = 1 then 0 else r.val; rw [if_neg hn])

/-- An `n × 1` column repeated over `k` columns reads, at `(r, q)`, the column's entry `(r, 0)`. -/
theorem bcast_cols_apply {n k : ℕ} (hn : n ≠ 1) (x : (⟨2, ![n, 1]⟩ : Shape).Idx → α)
    (h : (⟨2, ![n, 1]⟩ : Shape).BroadcastsInDim ⟨2, ![n, k]⟩ (![0, 1] : Fin 2 → Fin 2))
    (r : Fin n) (q : Fin k) : broadcastInDim ⟨2, ![n, k]⟩ ![0, 1] h x (ix2 r q) = x (ix2 r (0 : Fin 1)) :=
  broadcastInDim_apply _ h x (ix2 r q) (ix2 r (0 : Fin 1)) (fun a => match a with
    | ⟨0, _⟩ => by show r.val = if n = 1 then 0 else r.val; rw [if_neg hn]
    | ⟨1, _⟩ => by show (0 : ℕ) = if (1 : ℕ) = 1 then 0 else q.val; rw [if_pos rfl])

/-- A vector of length `k` laid along the one row of a `1 × k` array reads, at `(0, q)`, its entry `q`. -/
theorem bcast_row_apply {k : ℕ} (hk : k ≠ 1) (x : (⟨1, ![k]⟩ : Shape).Idx → α)
    (h : (⟨1, ![k]⟩ : Shape).BroadcastsInDim ⟨2, ![1, k]⟩ (![1] : Fin 1 → Fin 2))
    (z : Fin 1) (q : Fin k) : broadcastInDim ⟨2, ![1, k]⟩ ![1] h x (ix2 z q) = x (ix1 q) :=
  broadcastInDim_apply _ h x (ix2 z q) (ix1 q) (fun a => match a with
    | ⟨0, _⟩ => by show q.val = if k = 1 then 0 else q.val; rw [if_neg hk])

/-- A `1 × k` row repeated over `n` rows reads, at `(r, q)`, the row's entry `(0, q)`. -/
theorem bcast_rows_apply {n k : ℕ} (hk : k ≠ 1) (x : (⟨2, ![1, k]⟩ : Shape).Idx → α)
    (h : (⟨2, ![1, k]⟩ : Shape).BroadcastsInDim ⟨2, ![n, k]⟩ (![0, 1] : Fin 2 → Fin 2))
    (r : Fin n) (q : Fin k) : broadcastInDim ⟨2, ![n, k]⟩ ![0, 1] h x (ix2 r q) = x (ix2 (0 : Fin 1) q) :=
  broadcastInDim_apply _ h x (ix2 r q) (ix2 (0 : Fin 1) q) (fun a => match a with
    | ⟨0, _⟩ => by show (0 : ℕ) = if (1 : ℕ) = 1 then 0 else r.val; rw [if_pos rfl]
    | ⟨1, _⟩ => by show q.val = if k = 1 then 0 else q.val; rw [if_neg hk])

/-- A scalar spread over any shape reads the scalar everywhere. -/
theorem bcast_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 (fun a => a.elim0)

/-- Inside a kernel, an `m × 1` column spread over `k` lanes reads, at `(p, q)`, the column's entry `(p, 0)`. -/
theorem broadcastTo_col_apply {m k : ℕ} (hm : m ≠ 1) (x : (⟨2, ![m, 1]⟩ : Shape).Idx → α)
    (h : (⟨2, ![m, 1]⟩ : Shape).Broadcasts ⟨2, ![m, k]⟩) (p : Fin m) (q : Fin k) :
    broadcastTo ⟨2, ![m, k]⟩ x h (ix2 p q) = x (ix2 p (0 : Fin 1)) := by
  refine broadcastTo_apply x h (ix2 p q) (ix2 p (0 : Fin 1)) fun ax => ?_
  match ax with
  | ⟨0, _⟩ => show p.val = if m = 1 then 0 else p.val; rw [if_neg hm]
  | ⟨1, _⟩ => show (0 : ℕ) = if (1 : ℕ) = 1 then 0 else q.val; rw [if_pos rfl]

end Layout

/-! ## The host's matrix product at an entry -/

/-- Rows by columns on the host: an `M × K` by a `K × N` operand, the left contracted on its last axis and the right
    on its first, read at `(a, b)`, is the sum over the contracted coordinate. -/
theorem dotGeneral_10_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    Host.dotGeneral (F := Ideal) d prec A B (ix2 a b) = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  simp only [Host.dotGeneral]
  rw [Ideal.dotGeneral_apply, ← Equiv.sum_comp (contrEquiv1 d K hr hs).symm]
  refine Finset.sum_congr rfl fun c _ => ?_
  have c2 := contrEquiv1_symm_val d K hr hs c
  have l0 := Cert.LibDot.lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := Cert.LibDot.rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-! ## The layer, as whole-array functions -/

/-- Rows scaled by the reciprocal square root of a column: `h[r, c] = x[r, c] · d[r, 0]^(-1/2)`. -/
def scaleRows (x : FVec Ideal ⟨2, ![50000, 128]⟩ .f32) (d : FVec Ideal ⟨2, ![50000, 1]⟩ .f32) :
    FVec Ideal ⟨2, ![50000, 128]⟩ .f32 :=
  fun i => x i * Ideal.rsqrt (d (ix2 (i 0) (0 : Fin 1)))

/-- The projection with its right scaling, bias and clamp at zero:
    `out[r, q] = max ((Σ_k a[r, k] · w[k, q]) · d[r, 0]^(-1/2) + b[0, q], 0)`. -/
def project (a : FVec Ideal ⟨2, ![50000, 128]⟩ .f32) (w : FVec Ideal ⟨2, ![128, 128]⟩ .f32)
    (b : FVec Ideal ⟨2, ![1, 128]⟩ .f32) (d : FVec Ideal ⟨2, ![50000, 1]⟩ .f32) :
    FVec Ideal ⟨2, ![50000, 128]⟩ .f32 :=
  fun i => max ((∑ k : Fin 128, a (ix2 (i 0) k) * w (ix2 k (i 1))) * Ideal.rsqrt (d (ix2 (i 0) (0 : Fin 1)))
    + b (ix2 (0 : Fin 1) (i 1))) 0

/-! ## The two spellings agree -/

section Agree

variable (hc : (⟨1, ![50000]⟩ : Shape).ShapeCasts ⟨2, ![50000, 1]⟩)
  (h0 : (⟨0, ![]⟩ : Shape).BroadcastsInDim ⟨1, ![50000]⟩ (![] : Fin 0 → Fin 1))
  (h1 : (⟨1, ![50000]⟩ : Shape).BroadcastsInDim ⟨2, ![50000, 1]⟩ (![0] : Fin 1 → Fin 2))
  (h2 : (⟨2, ![50000, 1]⟩ : Shape).BroadcastsInDim ⟨2, ![50000, 128]⟩ (![0, 1] : Fin 2 → Fin 2))

/-- The degree column, spelt either way, at an entry: the reciprocal square root of the stored column is the power
    `-1/2` spread along the rows, because a clamped degree is at least one. -/
theorem norm_col (dd : FVec Ideal ⟨1, ![50000]⟩ .f32) (hd : ∀ r, 1 ≤ dd r) (r : Fin 50000) (q : Fin 128) :
    Ideal.rsqrt (shapeCast ⟨2, ![50000, 1]⟩ dd hc (ix2 r (0 : Fin 1)))
      = broadcastInDim ⟨2, ![50000, 128]⟩ ![0, 1] h2 (broadcastInDim ⟨2, ![50000, 1]⟩ ![0] h1
          (Host.powf dd (broadcastInDim ⟨1, ![50000]⟩ ![] h0 (constant (F := Ideal) ⟨0, ![]⟩ .f32 0xBF000000#32)))) (ix2 r q) := by
  rw [shapeCast_col_apply, bcast_cols_apply (by decide), bcast_col_apply (by decide)]
  show _ = Ideal.pow (dd (ix1 r)) (broadcastInDim ⟨1, ![50000]⟩ ![] h0 (constant (F := Ideal) ⟨0, ![]⟩ .f32 0xBF000000#32) (ix1 r))
  rw [bcast_scalar_apply]
  show _ = Ideal.pow (dd (ix1 r)) (Ideal.ofBits .f32 0xBF000000#32)
  rw [ofBits_neg_half]
  exact rsqrt_eq_pow_neg_half _ (hd _)

/-- The left scaling, spelt either way, as whole arrays. -/
theorem scaleRows_eq (x : FVec Ideal ⟨2, ![50000, 128]⟩ .f32) (dd : FVec Ideal ⟨1, ![50000]⟩ .f32) (hd : ∀ r, 1 ≤ dd r) :
    scaleRows x (shapeCast ⟨2, ![50000, 1]⟩ dd hc)
      = mulf x (broadcastInDim ⟨2, ![50000, 128]⟩ ![0, 1] h2 (broadcastInDim ⟨2, ![50000, 1]⟩ ![0] h1
          (Host.powf dd (broadcastInDim ⟨1, ![50000]⟩ ![] h0 (constant (F := Ideal) ⟨0, ![]⟩ .f32 0xBF000000#32))))) := by
  funext i
  obtain ⟨r, q, rfl⟩ : ∃ (r : Fin 50000) (q : Fin 128), i = ix2 r q := ⟨i 0, i 1, eq_ix2 i⟩
  show x (ix2 r q) * Ideal.rsqrt (shapeCast ⟨2, ![50000, 1]⟩ dd hc (ix2 r (0 : Fin 1))) = x (ix2 r q) * _
  rw [norm_col hc h0 h1 h2 dd hd r q]

/-- THE LAYER, spelt either way: with the edge transport `T` the same function on both sides and both degree vectors
    at least one, the projection of the transported, left-scaled features is the host's chain of product, right scaling by
    the power `-1/2`, bias and clamp. -/
theorem layer_eq (T : FVec Ideal ⟨2, ![50000, 128]⟩ .f32 → FVec Ideal ⟨2, ![50000, 128]⟩ .f32)
    (x : FVec Ideal ⟨2, ![50000, 128]⟩ .f32) (w : FVec Ideal ⟨2, ![128, 128]⟩ .f32) (b : FVec Ideal ⟨1, ![128]⟩ .f32)
    (dout din : FVec Ideal ⟨1, ![50000]⟩ .f32) (hout : ∀ r, 1 ≤ dout r) (hin : ∀ r, 1 ≤ din r)
    (d : DotDims ⟨2, ![50000, 128]⟩ ⟨2, ![128, 128]⟩ ⟨2, ![50000, 128]⟩)
    (hlc : d.lhsContracting = [1]) (hrc : d.rhsContracting = [0]) (hln : d.lhsNonContracting = [0])
    (hrn : d.rhsNonContracting = [1]) (hlb : d.lhsBatch = []) (hrb : d.rhsBatch = [])
    (hcb : (⟨1, ![128]⟩ : Shape).ShapeCasts ⟨2, ![1, 128]⟩)
    (hb1 : (⟨1, ![128]⟩ : Shape).BroadcastsInDim ⟨2, ![1, 128]⟩ (![1] : Fin 1 → Fin 2))
    (hb2 : (⟨2, ![1, 128]⟩ : Shape).BroadcastsInDim ⟨2, ![50000, 128]⟩ (![0, 1] : Fin 2 → Fin 2))
    (hz : (⟨0, ![]⟩ : Shape).BroadcastsInDim ⟨2, ![50000, 128]⟩ (![] : Fin 0 → Fin 2)) :
    project (T (scaleRows x (shapeCast ⟨2, ![50000, 1]⟩ dout hc))) w (shapeCast ⟨2, ![1, 128]⟩ b hcb)
        (shapeCast ⟨2, ![50000, 1]⟩ din hc)
      = maximumf (addf (mulf
            (Host.dotGeneral d none (T (mulf x (broadcastInDim ⟨2, ![50000, 128]⟩ ![0, 1] h2
              (broadcastInDim ⟨2, ![50000, 1]⟩ ![0] h1 (Host.powf dout
                (broadcastInDim ⟨1, ![50000]⟩ ![] h0 (constant (F := Ideal) ⟨0, ![]⟩ .f32 0xBF000000#32))))))) w)
            (broadcastInDim ⟨2, ![50000, 128]⟩ ![0, 1] h2 (broadcastInDim ⟨2, ![50000, 1]⟩ ![0] h1 (Host.powf din
              (broadcastInDim ⟨1, ![50000]⟩ ![] h0 (constant (F := Ideal) ⟨0, ![]⟩ .f32 0xBF000000#32))))))
          (broadcastInDim ⟨2, ![50000, 128]⟩ ![0, 1] hb2 (broadcastInDim ⟨2, ![1, 128]⟩ ![1] hb1 b)))
        (broadcastInDim ⟨2, ![50000, 128]⟩ ![] hz (constant (F := Ideal) ⟨0, ![]⟩ .f32 0x00000000#32)) := by
  rw [scaleRows_eq hc h0 h1 h2 x dout hout]
  generalize T _ = A
  funext i
  obtain ⟨r, q, rfl⟩ : ∃ (r : Fin 50000) (q : Fin 128), i = ix2 r q := ⟨i 0, i 1, eq_ix2 i⟩
  show max ((∑ k : Fin 128, A (ix2 r k) * w (ix2 k q)) * Ideal.rsqrt (shapeCast ⟨2, ![50000, 1]⟩ din hc (ix2 r (0 : Fin 1)))
      + shapeCast ⟨2, ![1, 128]⟩ b hcb (ix2 (0 : Fin 1) q)) 0
    = max (Host.dotGeneral d none A w (ix2 r q) * _ + _) _
  rw [dotGeneral_10_apply d hlc hrc hln hrn hlb hrb, norm_col hc h0 h1 h2 din hin r q, shapeCast_a_1a_apply,
    bcast_rows_apply (by decide), bcast_row_apply (by decide), bcast_scalar_apply]
  show _ = max _ (Ideal.ofBits .f32 0x00000000#32)
  rw [Ideal.ofBits_zero_f32]

end Agree

end Cert.GraphConv

end
-- ==== Proof.ScaleRegion.lean ====
/-
  The first kernel region, read as a value: whatever the buffers hold when the region is entered, the array it writes
  ends holding the features' rows scaled by the reciprocal square root of the degree column,
      h[r, c] = x[r, c] · d[r, 0]^(-1/2).
  Grid point `t` of 50 handles rows `1000·t … 1000·t + 999`: its feature block and its output block are those rows of
  all 128 columns, its degree block those rows of the one column, and the body multiplies the feature block by the
  reciprocal square root of the degree block spread over the lanes. The 50 output blocks tile the array.
-/
import proofs.«152063_j51032801411439_1_alg».proof.Proof.Gen.KernelIdeal.Frame
import proofs.«152063_j51032801411439_1_alg».proof.Proof.GraphConv
import Idealize.ShloMosaic.Lib.Pipeline.Value

set_option maxRecDepth 16384

noncomputable section

namespace Cert.KernelIdeal.ScaleRegion

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's stored value at lane `q` of row `p`: the feature entry times the reciprocal square root of the row's degree. -/
theorem scaled_apply (v0 : Vec Ideal S1000x1 .f32) (v3 : Vec Ideal S1000x128 .f32) (p : Fin 1000) (q : Fin 128) :
    k0_pay1 (F := Ideal) v0 v3 (ix2 p q) = v3 (ix2 p q) * Ideal.rsqrt (v0 (ix2 p (0 : Fin 1))) := by
  unfold k0_pay1
  show v3 (ix2 p q) * broadcastTo S1000x128 (rsqrt (F := Ideal) (φ := .f32) (shapeCast S1000x1 v0 shapeCasts_S1000x1_S1000x1)) broadcasts_S1000x1_S1000x128 (ix2 p q) = _
  rw [broadcastTo_col_apply (by decide), shapeCast_self]
  rfl

/-- The index maps over the grid: every window's block row is the point's number, its block column zero. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 50 := lt_of_lt_of_eq t.isLt N_0

/-- Row `p` of point `t`'s block is row `1000·t + p` of the array. -/
abbrev row (t : Fin cfg0.N) (p : Fin 1000) : Fin 50000 := ⟨t.val * 1000 + p.val, by have := point_lt t; omega⟩

/-- Where an entry of point `t`'s feature block sits in the feature array. -/
theorem emb_feat (t : Fin cfg0.N) (p : Fin 1000) (q : Fin 128) :
    ((cfg0.win 0).blk t).view.emb (ix2 p q) = ix2 (row t p) q := by
  obtain ⟨e0, e1, -⟩ := index_facts t
  funext a; apply Fin.ext
  match a with
  | ⟨0, _⟩ => show win0_0.index t (0 : Fin 2) * 1000 + 1 * p.val = t.val * 1000 + p.val; omega
  | ⟨1, _⟩ => show win0_0.index t (1 : Fin 2) * 128 + 1 * q.val = q.val; omega

/-- Where an entry of point `t`'s degree block sits in the degree column. -/
theorem emb_deg (t : Fin cfg0.N) (p : Fin 1000) (z : Fin 1) :
    ((cfg0.win 1).blk t).view.emb (ix2 p z) = ix2 (row t p) (0 : Fin 1) := by
  obtain ⟨-, -, e0, e1, -⟩ := index_facts t
  funext a; apply Fin.ext
  match a with
  | ⟨0, _⟩ => show win0_1.index t (0 : Fin 2) * 1000 + 1 * p.val = t.val * 1000 + p.val; omega
  | ⟨1, _⟩ => show win0_1.index t (1 : Fin 2) * 1 + 1 * z.val = 0; omega

/-- Where an entry of point `t`'s output block sits in the output array. -/
theorem emb_out (t : Fin cfg0.N) (p : Fin 1000) (q : Fin 128) :
    ((cfg0.win 2).blk t).view.emb (ix2 p q) = ix2 (row t p) q := by
  obtain ⟨-, -, -, -, e0, e1⟩ := index_facts t
  funext a; apply Fin.ext
  match a with
  | ⟨0, _⟩ => show win0_2.index t (0 : Fin 2) * 1000 + 1 * p.val = t.val * 1000 + p.val; omega
  | ⟨1, _⟩ => show win0_2.index t (1 : Fin 2) * 128 + 1 * q.val = q.val; omega

/-- Point `t`'s feature block read at an entry. -/
theorem feat_block (c : Dev nD) (t : Fin cfg0.N) (p : Fin 1000) (q : Fin 128) :
    iblk0 V c 0 t (ix2 p q) = V c main_arg0 (ix2 (row t p) q) := by
  show V c main_arg0 (((cfg0.win 0).blk t).view.emb (ix2 p q)) = _
  rw [emb_feat]

/-- Point `t`'s degree block read at an entry. -/
theorem deg_block (c : Dev nD) (t : Fin cfg0.N) (p : Fin 1000) (z : Fin 1) :
    iblk0 V c 1 t (ix2 p z) = V c main_v9 (ix2 (row t p) (0 : Fin 1)) := by
  show V c main_v9 (((cfg0.win 1).blk t).view.emb (ix2 p z)) = _
  rw [emb_deg]

/-- What point `t` writes back is block `t` of the scaled array. -/
theorem flushed_eq (c : Dev nD) (t : Fin cfg0.N) :
    (dat0 V c).flushed 2 t
      = ((cfg0.win 2).blk t).view.read (Elt Ideal) (scaleRows (V c main_arg0) (V c main_v9)) := by
  show (cfg0.win 2).cut (grid0.coords t) ((dat0 V c).after 2 t) = _
  rw [after0_2]
  unfold out0_2
  rw [View.canon_unit_zero origin]
  simp only [View.ld_unit_zero (S := S1000x1) origin, View.ld_unit_zero (S := S1000x128) origin]
  funext j
  obtain ⟨p, q, rfl⟩ : ∃ (p : Fin 1000) (q : Fin 128), j = ix2 p q := ⟨j 0, j 1, eq_ix2 j⟩
  show k0_pay1 (F := Ideal) (iblk0 V c 1 t) (iblk0 V c 0 t) (ix2 p q)
    = scaleRows (V c main_arg0) (V c main_v9) (((cfg0.win 2).blk t).view.emb (ix2 p q))
  rw [scaled_apply, feat_block, deg_block, emb_out]
  rfl

/-- An index of the array is in point `t`'s block iff each coordinate is in the block's range on its axis. -/
theorem mem_block (t : Fin cfg0.N) (i : S50000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v10).slice (win0_2.rect t)).set ↔ _
  rw [View.set_slice_whole, Rect.mem_set_unit]
  exact Iff.rfl

/-- Every entry of the array is in the block of the point that handles its row. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  refine ⟨⟨(i 0).val / 1000, by rw [show cfg0.N = 50 from N_0]; omega⟩, flush0_2 _, ?_⟩
  rw [mem_block]
  obtain ⟨-, -, -, -, e0, e1⟩ := index_facts ⟨(i 0).val / 1000, by rw [show cfg0.N = 50 from N_0]; omega⟩
  intro a
  match a with
  | ⟨0, _⟩ =>
    show win0_2.index _ (0 : Fin 2) * 1000 ≤ (i 0).val ∧ (i 0).val < win0_2.index _ (0 : Fin 2) * 1000 + 1000
    rw [e0]; show (i 0).val / 1000 * 1000 ≤ (i 0).val ∧ (i 0).val < (i 0).val / 1000 * 1000 + 1000; omega
  | ⟨1, _⟩ =>
    show win0_2.index _ (1 : Fin 2) * 128 ≤ (i 1).val ∧ (i 1).val < win0_2.index _ (1 : Fin 2) * 128 + 128
    rw [e1]; omega

/-- THE ARRAY after the region: the features' rows scaled by the reciprocal square root of the degree column, both as the
    region finds them. -/
theorem final (c : Dev nD) :
    (dat0 V c).arrAt 2 cfg0.N = scaleRows (V c main_arg0) (V c main_v9) :=
  (dat0 V c).arrAt_eq_of_cover 2 (scaleRows (V c main_arg0) (V c main_v9)) (fun t _ => flushed_eq V c t) cover

end Cert.KernelIdeal.ScaleRegion

end
-- ==== Proof.ProjectRegion.lean ====
/-
  The second kernel region, read as a value: whatever the buffers hold when the region is entered, the array it writes
  ends holding the projection with its right scaling, bias and clamp,
      out[r, q] = max ((Σ_k a[r, k] · w[k, q]) · d[r, 0]^(-1/2) + b[0, q], 0).
  Grid point `t` of 50 handles rows `1000·t … 1000·t + 999`: its block of `a` and its output block are those rows of
  all 128 columns, its degree block those rows of the one column, and the weight matrix and the bias row are read whole
  at every point. The body rounds both product operands to bf16 — the identity at the ideal values —, multiplies them
  into a zero accumulator, scales each row, adds the bias row and clamps at zero. The 50 output blocks tile the array.
-/
import proofs.«152063_j51032801411439_1_alg».proof.Proof.Gen.KernelIdeal.Frame
import proofs.«152063_j51032801411439_1_alg».proof.Proof.GraphConv
import proofs.«152063_j51032801411439_1_alg».proof.Proof.LibDot
import Idealize.ShloMosaic.Lib.Pipeline.Value
import Idealize.ShloMosaic.Lib.ValueLayout

set_option maxRecDepth 16384

noncomputable section

open scoped BigOperators

namespace Cert.KernelIdeal.ProjectRegion

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's stored value at lane `q` of row `p`: the row of the first operand against column `q` of the weights,
    times the reciprocal square root of the row's degree, plus the bias at `q`, clamped at zero. -/
theorem projected_apply (v0 : Vec Ideal S1000x128 .f32) (v3 : Vec Ideal S128x128 .f32) (v6 : Vec Ideal S1000x1 .f32)
    (v11 : Vec Ideal S1x128 .f32) (p : Fin 1000) (q : Fin 128) :
    k1_pay1 (F := Ideal) v0 v3 v6 v11 (ix2 p q)
      = max ((∑ k : Fin 128, v0 (ix2 p k) * v3 (ix2 k q)) * Ideal.rsqrt (v6 (ix2 p (0 : Fin 1))) + v11 (ix2 (0 : Fin 1) q)) 0 := by
  unfold k1_pay1
  show max (matmul (F := Ideal) dot_S1000x128_S128x128_S1000x128_1_0_0_1_n_n none
          (truncf (F := Ideal) (φ := .f32) .bf16 (shapeCast S1000x128 v0 shapeCasts_S1000x128_S1000x128) bitsLt_bf16_f32)
          (truncf (F := Ideal) (φ := .f32) .bf16 v3 bitsLt_bf16_f32) (constant S1000x128 .f32 0x00000000#32) (ix2 p q)
        * broadcastTo S1000x128 (rsqrt (F := Ideal) (φ := .f32) (shapeCast S1000x1 v6 shapeCasts_S1000x1_S1000x1)) broadcasts_S1000x1_S1000x128 (ix2 p q)
        + broadcastTo S1000x128 (shapeCast S1x128 v11 shapeCasts_S1x128_S1x128) broadcasts_S1x128_S1000x128 (ix2 p q))
      (Ideal.ofBits .f32 0x00000000#32) = _
  rw [Cert.LibDot.matmul_10_zero_apply _ rfl rfl rfl rfl rfl rfl, broadcastTo_col_apply (by decide),
    broadcastTo_1b_ab_apply, shapeCast_self, shapeCast_self, shapeCast_self, Ideal.ofBits_zero_f32]
  rfl

/-- The index maps over the grid: the moving windows' block row is the point's number, every other block index zero. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem point_lt (t : Fin cfg1.N) : t.val < 50 := lt_of_lt_of_eq t.isLt N_1

/-- Row `p` of point `t`'s block is row `1000·t + p` of the array. -/
abbrev row (t : Fin cfg1.N) (p : Fin 1000) : Fin 50000 := ⟨t.val * 1000 + p.val, by have := point_lt t; omega⟩

theorem emb_lhs (t : Fin cfg1.N) (p : Fin 1000) (k : Fin 128) :
    ((cfg1.win 0).blk t).view.emb (ix2 p k) = ix2 (row t p) k := by
  obtain ⟨e0, e1, -⟩ := index_facts t
  funext a; apply Fin.ext
  match a with
  | ⟨0, _⟩ => show win1_0.index t (0 : Fin 2) * 1000 + 1 * p.val = t.val * 1000 + p.val; omega
  | ⟨1, _⟩ => show win1_0.index t (1 : Fin 2) * 128 + 1 * k.val = k.val; omega

theorem emb_weight (t : Fin cfg1.N) (k : Fin 128) (q : Fin 128) :
    ((cfg1.win 1).blk t).view.emb (ix2 k q) = ix2 k q := by
  obtain ⟨-, -, e0, e1, -⟩ := index_facts t
  funext a; apply Fin.ext
  match a with
  | ⟨0, _⟩ => show win1_1.index t (0 : Fin 2) * 128 + 1 * k.val = k.val; omega
  | ⟨1, _⟩ => show win1_1.index t (1 : Fin 2) * 128 + 1 * q.val = q.val; omega

theorem emb_bias (t : Fin cfg1.N) (z : Fin 1) (q : Fin 128) :
    ((cfg1.win 2).blk t).view.emb (ix2 z q) = ix2 (0 : Fin 1) q := by
  obtain ⟨-, -, -, -, e0, e1, -⟩ := index_facts t
  funext a; apply Fin.ext
  match a with
  | ⟨0, _⟩ => show win1_2.index t (0 : Fin 2) * 1 + 1 * z.val = 0; omega
  | ⟨1, _⟩ => show win1_2.index t (1 : Fin 2) * 128 + 1 * q.val = q.val; omega

theorem emb_deg (t : Fin cfg1.N) (p : Fin 1000) (z : Fin 1) :
    ((cfg1.win 3).blk t).view.emb (ix2 p z) = ix2 (row t p) (0 : Fin 1) := by
  obtain ⟨-, -, -, -, -, -, e0, e1, -⟩ := index_facts t
  funext a; apply Fin.ext
  match a with
  | ⟨0, _⟩ => show win1_3.index t (0 : Fin 2) * 1000 + 1 * p.val = t.val * 1000 + p.val; omega
  | ⟨1, _⟩ => show win1_3.index t (1 : Fin 2) * 1 + 1 * z.val = 0; omega

theorem emb_out (t : Fin cfg1.N) (p : Fin 1000) (q : Fin 128) :
    ((cfg1.win 4).blk t).view.emb (ix2 p q) = ix2 (row t p) q := by
  obtain ⟨-, -, -, -, -, -, -, -, e0, e1⟩ := index_facts t
  funext a; apply Fin.ext
  match a with
  | ⟨0, _⟩ => show win1_4.index t (0 : Fin 2) * 1000 + 1 * p.val = t.val * 1000 + p.val; omega
  | ⟨1, _⟩ => show win1_4.index t (1 : Fin 2) * 128 + 1 * q.val = q.val; omega

/-- The four input blocks of point `t` read at an entry. -/
theorem lhs_block (c : Dev nD) (t : Fin cfg1.N) (p : Fin 1000) (k : Fin 128) :
    iblk1 V c 0 t (ix2 p k) = V c main_v20 (ix2 (row t p) k) := by
  show V c main_v20 (((cfg1.win 0).blk t).view.emb (ix2 p k)) = _
  rw [emb_lhs]
theorem weight_block (c : Dev nD) (t : Fin cfg1.N) (k : Fin 128) (q : Fin 128) :
    iblk1 V c 1 t (ix2 k q) = V c main_arg3 (ix2 k q) := by
  show V c main_arg3 (((cfg1.win 1).blk t).view.emb (ix2 k q)) = _
  rw [emb_weight]
theorem bias_block (c : Dev nD) (t : Fin cfg1.N) (z : Fin 1) (q : Fin 128) :
    iblk1 V c 2 t (ix2 z q) = V c main_v22 (ix2 (0 : Fin 1) q) := by
  show V c main_v22 (((cfg1.win 2).blk t).view.emb (ix2 z q)) = _
  rw [emb_bias]
theorem deg_block (c : Dev nD) (t : Fin cfg1.N) (p : Fin 1000) (z : Fin 1) :
    iblk1 V c 3 t (ix2 p z) = V c main_v21 (ix2 (row t p) (0 : Fin 1)) := by
  show V c main_v21 (((cfg1.win 3).blk t).view.emb (ix2 p z)) = _
  rw [emb_deg]

/-- What point `t` writes back is block `t` of the projected array. -/
theorem flushed_eq (c : Dev nD) (t : Fin cfg1.N) :
    (dat1 V c).flushed 4 t
      = ((cfg1.win 4).blk t).view.read (Elt Ideal)
          (project (V c main_v20) (V c main_arg3) (V c main_v22) (V c main_v21)) := by
  show (cfg1.win 4).cut (grid1.coords t) ((dat1 V c).after 4 t) = _
  rw [after1_4]
  unfold out1_4
  rw [View.canon_unit_zero origin]
  simp only [View.ld_unit_zero (S := S1000x1) origin, View.ld_unit_zero (S := S1000x128) origin,
    View.ld_unit_zero (S := S128x128) origin, View.ld_unit_zero (S := S1x128) origin]
  funext j
  obtain ⟨p, q, rfl⟩ : ∃ (p : Fin 1000) (q : Fin 128), j = ix2 p q := ⟨j 0, j 1, eq_ix2 j⟩
  show k1_pay1 (F := Ideal) (iblk1 V c 0 t) (iblk1 V c 1 t) (iblk1 V c 3 t) (iblk1 V c 2 t) (ix2 p q)
    = project (V c main_v20) (V c main_arg3) (V c main_v22) (V c main_v21) (((cfg1.win 4).blk t).view.emb (ix2 p q))
  rw [projected_apply, deg_block, bias_block, emb_out]
  simp only [lhs_block, weight_block]
  rfl

/-- An index of the array is in point `t`'s block iff each coordinate is in the block's range on its axis. -/
theorem mem_block (t : Fin cfg1.N) (i : S50000x128.Idx) :
    i ∈ ((cfg1.win 4).blk t).view.set ↔ ∀ a : Fin 2, win1_4.index t a * S1000x128.size a ≤ (i a).val ∧ (i a).val < win1_4.index t a * S1000x128.size a + S1000x128.size a := by
  show i ∈ ((View.whole main_v23).slice (win1_4.rect t)).set ↔ _
  rw [View.set_slice_whole, Rect.mem_set_unit]
  exact Iff.rfl

/-- Every entry of the array is in the block of the point that handles its row. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  refine ⟨⟨(i 0).val / 1000, by rw [show cfg1.N = 50 from N_1]; omega⟩, flush1_4 _, ?_⟩
  rw [mem_block]
  obtain ⟨-, -, -, -, -, -, -, -, e0, e1⟩ := index_facts ⟨(i 0).val / 1000, by rw [show cfg1.N = 50 from N_1]; omega⟩
  intro a
  match a with
  | ⟨0, _⟩ =>
    show win1_4.index _ (0 : Fin 2) * 1000 ≤ (i 0).val ∧ (i 0).val < win1_4.index _ (0 : Fin 2) * 1000 + 1000
    rw [e0]; show (i 0).val / 1000 * 1000 ≤ (i 0).val ∧ (i 0).val < (i 0).val / 1000 * 1000 + 1000; omega
  | ⟨1, _⟩ =>
    show win1_4.index _ (1 : Fin 2) * 128 ≤ (i 1).val ∧ (i 1).val < win1_4.index _ (1 : Fin 2) * 128 + 128
    rw [e1]; omega

/-- THE ARRAY after the region: the projection of the four arrays the region reads, as it finds them. -/
theorem final (c : Dev nD) :
    (dat1 V c).arrAt 4 cfg1.N = project (V c main_v20) (V c main_arg3) (V c main_v22) (V c main_v21) :=
  (dat1 V c).arrAt_eq_of_cover 4 (project (V c main_v20) (V c main_arg3) (V c main_v22) (V c main_v21))
    (fun t _ => flushed_eq V c t) cover

end Cert.KernelIdeal.ProjectRegion

end
-- ==== Proof.HostValue.lean ====
/-
  The idealized kernel program's result as one function of its arguments.

  Between the launch and the first region the host computes both clamped degree vectors (a count of the edges at each
  node, by source for the out-degree and by destination for the in-degree, clamped below by one) and stores the
  out-degree as a column; between the regions it moves the first region's rows along the edges (a gather by source, negative
  indices wrapped, then a sum by destination) and stores the in-degree as a column and the bias as a row. Reading every
  boundary's contents back to the launch memory, and each region's array by its value, the result is
      project (transport (scaleRows x (column (degree src)))) w (row b) (column (degree dst)).
-/
import proofs.«152063_j51032801411439_1_alg».proof.Proof.Gen.KernelIdeal.Frame
import proofs.«152063_j51032801411439_1_alg».proof.Proof.GraphConv
import proofs.«152063_j51032801411439_1_alg».proof.Proof.ScaleRegion
import proofs.«152063_j51032801411439_1_alg».proof.Proof.ProjectRegion
import Idealize.ShloMosaic.Lib.StableHlo.Run

set_option maxRecDepth 16384

noncomputable section

namespace Cert.KernelIdeal.HostValue

open Cert.KernelIdeal Cert.KernelIdeal.Gen Cert.GraphConv
open Idealize.ShloMosaic Idealize.ShloMosaic.TcCoe Idealize.ShloMosaic.ValueIdx Idealize.SL.Sem
open Idealize.ShloMosaic.StableHlo

/-- Operations run one list after another are their concatenation run as one. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The clamped degree of every node: the number of entries of `idx` equal to the node, at least one. -/
def degree (idx : (⟨S600000, .i32⟩ : BufTy).Contents (Elt Ideal)) : FVec Ideal S50000 .f32 :=
  maximumf (broadcastInDim S50000 ![] bcast_S_S50000 (id (constant S_ .f32 0x3F800000#32)))
    (Host.scatterAdd scatter_S50000_S600000x1_S600000_n_0_0_1
      (broadcastInDim S50000 ![] bcast_S_S50000 (constant S_ .f32 0x00000000#32))
      (broadcastInDim S600000x1 ![0] bcast_S600000_S600000x1_0 idx)
      (broadcastInDim S600000 ![] bcast_S_S600000 (constant S_ .f32 0x3F800000#32)))

/-- Rows moved along the edges: row `src e` of `h` (a negative index wrapped by the node count) added into row
    `dst e`, over all edges `e`. -/
def transport (src dst : (⟨S600000, .i32⟩ : BufTy).Contents (Elt Ideal)) (h : FVec Ideal S50000x128 .f32) :
    FVec Ideal S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst)
    (Host.gather gather_S50000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

/-- A clamped degree is at least one. -/
theorem one_le_degree (idx : (⟨S600000, .i32⟩ : BufTy).Contents (Elt Ideal)) (r : S50000.Idx) : 1 ≤ degree idx r := by
  unfold degree
  show 1 ≤ max (broadcastInDim S50000 ![] bcast_S_S50000 (id (constant (F := Ideal) S_ .f32 0x3F800000#32)) r) _
  rw [bcast_scalar_apply]
  show 1 ≤ max (Ideal.ofBits .f32 0x3F800000#32) _
  rw [ofBits_one]
  exact le_max_left _ _

variable (m : (ℓ : Loc nD τ sig) → Buf (Elt Ideal) ℓ) (ρ : Dev nD → PrngReg)

/-! ## Before the first region -/

/-- The host operations before the first region, as one list. -/
abbrev opsBefore : List (HloOp τ sig (Elt Ideal)) := hostOps0 ++ (hostOps0_1 ++ (hostOps0_2 ++ (hostOps0_3 ++ hostOps0_4)))

theorem entry0_eq (c : Dev nD) : W5 m ρ c = after opsBefore (W0 m ρ c) := by
  simp only [opsBefore, after_append]

theorem entry0_arg0 (c : Dev nD) : V5 m ρ c main_arg0 = m ((c : Thread nD τ).loc main_arg0) := by
  show W5 m ρ c (Proc.devRef .tc main_arg0) = _
  rw [entry0_eq]
  simp only [opsBefore, hostOps0, hostOps0_1, hostOps0_2, hostOps0_3, hostOps0_4, List.cons_append, List.nil_append]
  after_results
theorem entry0_arg1 (c : Dev nD) : W5 m ρ c (Proc.devRef .tc main_arg1) = m ((c : Thread nD τ).loc main_arg1) := by
  rw [entry0_eq]
  simp only [opsBefore, hostOps0, hostOps0_1, hostOps0_2, hostOps0_3, hostOps0_4, List.cons_append, List.nil_append]
  after_results
theorem entry0_arg2 (c : Dev nD) : W5 m ρ c (Proc.devRef .tc main_arg2) = m ((c : Thread nD τ).loc main_arg2) := by
  rw [entry0_eq]
  simp only [opsBefore, hostOps0, hostOps0_1, hostOps0_2, hostOps0_3, hostOps0_4, List.cons_append, List.nil_append]
  after_results
theorem entry0_arg3 (c : Dev nD) : W5 m ρ c (Proc.devRef .tc main_arg3) = m ((c : Thread nD τ).loc main_arg3) := by
  rw [entry0_eq]
  simp only [opsBefore, hostOps0, hostOps0_1, hostOps0_2, hostOps0_3, hostOps0_4, List.cons_append, List.nil_append]
  after_results
theorem entry0_arg4 (c : Dev nD) : W5 m ρ c (Proc.devRef .tc main_arg4) = m ((c : Thread nD τ).loc main_arg4) := by
  rw [entry0_eq]
  simp only [opsBefore, hostOps0, hostOps0_1, hostOps0_2, hostOps0_3, hostOps0_4, List.cons_append, List.nil_append]
  after_results

/-- The out-degree column the first region reads. -/
theorem entry0_outdeg (c : Dev nD) :
    V5 m ρ c main_v9 = shapeCast S50000x1 (degree (m ((c : Thread nD τ).loc main_arg1))) shapeCasts_S50000_S50000x1 := by
  show W5 m ρ c (Proc.devRef .tc main_v9) = _
  rw [entry0_eq]
  simp only [opsBefore, hostOps0, hostOps0_1, hostOps0_2, hostOps0_3, hostOps0_4, List.cons_append, List.nil_append]
  after_results
  rfl

/-- The in-degree vector, computed before the first region and kept until the second. -/
theorem entry0_indeg (c : Dev nD) :
    W5 m ρ c (Proc.devRef .tc main_v8) = degree (m ((c : Thread nD τ).loc main_arg2)) := by
  rw [entry0_eq]
  simp only [opsBefore, hostOps0, hostOps0_1, hostOps0_2, hostOps0_3, hostOps0_4, List.cons_append, List.nil_append]
  after_results
  rfl

/-! ## Between the regions -/

/-- The first region's array, by its value. -/
theorem exit0_scaled (c : Dev nD) :
    W6 m ρ c (Proc.devRef .tc main_v10)
      = scaleRows (m ((c : Thread nD τ).loc main_arg0))
          (shapeCast S50000x1 (degree (m ((c : Thread nD τ).loc main_arg1))) shapeCasts_S50000_S50000x1) := by
  show W6 m ρ c (Proc.devRef .tc (Pipeline.arrRef spec0 2)) = _
  rw [W6_arr m ρ c 2, ScaleRegion.final, entry0_arg0, entry0_outdeg]

theorem exit0_arg1 (c : Dev nD) : W6 m ρ c (Proc.devRef .tc main_arg1) = m ((c : Thread nD τ).loc main_arg1) :=
  (W6_of_ne m ρ c main_arg1 (by decide)).trans (entry0_arg1 m ρ c)
theorem exit0_arg2 (c : Dev nD) : W6 m ρ c (Proc.devRef .tc main_arg2) = m ((c : Thread nD τ).loc main_arg2) :=
  (W6_of_ne m ρ c main_arg2 (by decide)).trans (entry0_arg2 m ρ c)
theorem exit0_arg3 (c : Dev nD) : W6 m ρ c (Proc.devRef .tc main_arg3) = m ((c : Thread nD τ).loc main_arg3) :=
  (W6_of_ne m ρ c main_arg3 (by decide)).trans (entry0_arg3 m ρ c)
theorem exit0_arg4 (c : Dev nD) : W6 m ρ c (Proc.devRef .tc main_arg4) = m ((c : Thread nD τ).loc main_arg4) :=
  (W6_of_ne m ρ c main_arg4 (by decide)).trans (entry0_arg4 m ρ c)
theorem exit0_indeg (c : Dev nD) : W6 m ρ c (Proc.devRef .tc main_v8) = degree (m ((c : Thread nD τ).loc main_arg2)) :=
  (W6_of_ne m ρ c main_v8 (by decide)).trans (entry0_indeg m ρ c)

/-- The transported rows the second region reads. -/
theorem entry1_agg (c : Dev nD) :
    V7 m ρ c main_v20 = transport (m ((c : Thread nD τ).loc main_arg1)) (m ((c : Thread nD τ).loc main_arg2))
      (scaleRows (m ((c : Thread nD τ).loc main_arg0))
        (shapeCast S50000x1 (degree (m ((c : Thread nD τ).loc main_arg1))) shapeCasts_S50000_S50000x1)) := by
  show after hostOps1 (W6 m ρ c) (Proc.devRef .tc main_v20) = _
  simp only [hostOps1]
  after_results
  rw [exit0_scaled, exit0_arg1, exit0_arg2]
  rfl

theorem entry1_weight (c : Dev nD) : V7 m ρ c main_arg3 = m ((c : Thread nD τ).loc main_arg3) := by
  show after hostOps1 (W6 m ρ c) (Proc.devRef .tc main_arg3) = _
  simp only [hostOps1]
  after_results
  exact exit0_arg3 m ρ c

theorem entry1_bias (c : Dev nD) :
    V7 m ρ c main_v22 = shapeCast S1x128 (m ((c : Thread nD τ).loc main_arg4)) shapeCasts_S128_S1x128 := by
  show after hostOps1 (W6 m ρ c) (Proc.devRef .tc main_v22) = _
  simp only [hostOps1]
  after_results
  rw [exit0_arg4]
  rfl

theorem entry1_indeg (c : Dev nD) :
    V7 m ρ c main_v21 = shapeCast S50000x1 (degree (m ((c : Thread nD τ).loc main_arg2))) shapeCasts_S50000_S50000x1 := by
  show after hostOps1 (W6 m ρ c) (Proc.devRef .tc main_v21) = _
  simp only [hostOps1]
  after_results
  rw [exit0_indeg]
  rfl

/-! ## The result -/

/-- THE RESULT ARRAY at the last boundary, as one function of the launch contents of the arguments. -/
theorem result_eq (c : Dev nD) :
    W8 m ρ c (Proc.devRef .tc main_v23)
      = project
          (transport (m ((c : Thread nD τ).loc main_arg1)) (m ((c : Thread nD τ).loc main_arg2))
            (scaleRows (m ((c : Thread nD τ).loc main_arg0))
              (shapeCast S50000x1 (degree (m ((c : Thread nD τ).loc main_arg1))) shapeCasts_S50000_S50000x1)))
          (m ((c : Thread nD τ).loc main_arg3))
          (shapeCast S1x128 (m ((c : Thread nD τ).loc main_arg4)) shapeCasts_S128_S1x128)
          (shapeCast S50000x1 (degree (m ((c : Thread nD τ).loc main_arg2))) shapeCasts_S50000_S50000x1) := by
  show W8 m ρ c (Proc.devRef .tc (Pipeline.arrRef spec1 4)) = _
  rw [W8_arr m ρ c 4, ProjectRegion.final, entry1_agg, entry1_weight, entry1_bias, entry1_indeg]

end Cert.KernelIdeal.HostValue

end
-- ==== Proof.lean ====
/-
  Degree-normalised graph convolution (50000 nodes, 600000 edges, 128 features in and out): the kernel program against
  its plain reference, over the extended reals.

  Both programs clamp the out- and in-degree of every node below by one, scale the feature rows by the out-degree to the
  power -1/2, move the rows along the edges (a gather by source, a sum by destination), multiply by the weight matrix,
  scale the rows by the in-degree to the power -1/2, add the bias and clamp at zero. They differ in two places only. The
  kernel program does the two scalings, the product, the bias and the clamp in two kernels tiled over blocks of 1000
  rows, and takes a reciprocal square root where the reference raises to the power -1/2; on [1, ⊤], where a clamped
  degree lies, the two are one function. And the kernel rounds the product's operands to bf16, which is the identity at
  the ideal values. So the kernel program's result array (each region's array read block by block and the host
  operations between them read back to the arguments) and the reference's composed term are the same function of the
  arguments; no finiteness of the inputs is used. The two kernel programs' frames are the generated ones, the reference's is
  its run with the result dropped, and the idealization rewrote nothing.
-/
import proofs.«152063_j51032801411439_1_alg».proof.Defs
import proofs.«152063_j51032801411439_1_alg».proof.Proof.Gen.Kernel
import proofs.«152063_j51032801411439_1_alg».proof.Proof.Gen.Kernel.Skeleton
import proofs.«152063_j51032801411439_1_alg».proof.Proof.Gen.Kernel.Launch
import proofs.«152063_j51032801411439_1_alg».proof.Proof.Gen.Kernel.Points
import proofs.«152063_j51032801411439_1_alg».proof.Proof.Gen.Kernel.Frame
import proofs.«152063_j51032801411439_1_alg».proof.Proof.Gen.KernelIdeal
import proofs.«152063_j51032801411439_1_alg».proof.Proof.Gen.KernelIdeal.Skeleton
import proofs.«152063_j51032801411439_1_alg».proof.Proof.Gen.KernelIdeal.Launch
import proofs.«152063_j51032801411439_1_alg».proof.Proof.Gen.KernelIdeal.Points
import proofs.«152063_j51032801411439_1_alg».proof.Proof.Gen.KernelIdeal.Frame
import proofs.«152063_j51032801411439_1_alg».proof.Proof.Gen.ReferenceIdeal
import proofs.«152063_j51032801411439_1_alg».proof.Proof.Gen.ReferenceIdeal.Run
import proofs.«152063_j51032801411439_1_alg».proof.Proof.Gen.Pre_finite_inputs
import proofs.«152063_j51032801411439_1_alg».proof.Proof.GraphConv
import proofs.«152063_j51032801411439_1_alg».proof.Proof.KernelIdealRun
import proofs.«152063_j51032801411439_1_alg».proof.Proof.HostValue
import Idealize.ShloMosaic.Adequacy
import Idealize.ShloMosaic.Init

set_option maxRecDepth 16384

noncomputable section

namespace Cert.Proof

open Idealize.ShloMosaic Idealize.ShloMosaic.TcCoe Idealize.SL.Sem

namespace Claims

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference has no kernel: its frame is its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories agreeing on the arguments both programs end with the same result: the kernel program's is the
    projection of the transported, left-scaled features, and the reference's composed term is that function spelt with
    the power -1/2 (`GraphConv.layer_eq`, both clamped degrees being at least one). -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Gen.W8 m ρ c (Proc.devRef .tc Cert.KernelIdeal.main_v23),
    Cert.KernelIdeal.ResultRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  show _ = Cert.KernelIdeal.Gen.W8 m ρ c (Proc.devRef .tc Cert.KernelIdeal.main_v23)
  rw [Cert.KernelIdeal.HostValue.result_eq]
  exact (Cert.GraphConv.layer_eq
    Cert.KernelIdeal.Facts₀.shapeCasts_S50000_S50000x1 Cert.ReferenceIdeal.Facts₀.bcast_S_S50000
    Cert.ReferenceIdeal.Facts₀.bcast_S50000_S50000x1_0 Cert.ReferenceIdeal.Facts₀.bcast_S50000x1_S50000x128_0_1
    (Cert.KernelIdeal.HostValue.transport (m ((c.tc : Thread Cert.KernelIdeal.nD Cert.KernelIdeal.τ).loc Cert.KernelIdeal.main_arg1))
      (m ((c.tc : Thread Cert.KernelIdeal.nD Cert.KernelIdeal.τ).loc Cert.KernelIdeal.main_arg2)))
    (m ((c.tc : Thread Cert.KernelIdeal.nD Cert.KernelIdeal.τ).loc Cert.KernelIdeal.main_arg0))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (Cert.KernelIdeal.HostValue.degree (m ((c.tc : Thread Cert.KernelIdeal.nD Cert.KernelIdeal.τ).loc Cert.KernelIdeal.main_arg1)))
    (Cert.KernelIdeal.HostValue.degree (m ((c.tc : Thread Cert.KernelIdeal.nD Cert.KernelIdeal.τ).loc Cert.KernelIdeal.main_arg2)))
    (Cert.KernelIdeal.HostValue.one_le_degree _) (Cert.KernelIdeal.HostValue.one_le_degree _)
    Cert.ReferenceIdeal.dot_S50000x128_S128x128_S50000x128_1_0_0_1_n_n rfl rfl rfl rfl rfl rfl
    Cert.KernelIdeal.Facts₀.shapeCasts_S128_S1x128 Cert.ReferenceIdeal.Facts₀.bcast_S128_S1x128_1
    Cert.ReferenceIdeal.Facts₀.bcast_S1x128_S50000x128_0_1 Cert.ReferenceIdeal.Facts₀.bcast_S_S50000x128).symm

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, trivial, Claims.algebraic⟩

end Cert.Proof

end
